-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64 : Shape := ⟨3, ![32, 512, 64]⟩
abbrev S64x64 : Shape := ⟨2, ![64, 64]⟩
abbrev S_ : Shape := ⟨0, ![]⟩

class Facts : Prop where
  bcast_S_S32x512x64 : S_.BroadcastsInDim S32x512x64 (![] : Fin 0 → Fin S32x512x64.rank)
  reducesTo_S32x512x64_S_d0_1_2 : S32x512x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S32x512x64 .f32) (main_arg1 : FVec F S64x64 .f32) : IVec S_ 1 :=
  let main_v0 : FVec F S32x512x64 .f32 := Host.absf main_arg0
  let main_cst : FVec F S_ .f32 := constant S_ .f32 0x7F800000#32
  let main_v1 : FVec F S32x512x64 .f32 := broadcastInDim S32x512x64 ![] bcast_S_S32x512x64 main_cst
  let main_v2 : IVec S32x512x64 1 := cmpf .olt main_v0 main_v1
  let main_c : IVec S_ 1 := constantI S_ 1 1#1
  let main_v3 : IVec S_ 1 := (fun x v => Host.reduce IntOp.andi x v reducesTo_S32x512x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S32x512x64 : Shape := ⟨3, ![32, 512, 64]⟩
abbrev S64x64 : Shape := ⟨2, ![64, 64]⟩
abbrev S32x512x64x64 : Shape := ⟨4, ![32, 512, 64, 64]⟩
abbrev S1x128x64 : Shape := ⟨3, ![1, 128, 64]⟩
abbrev S1x128x64x64 : Shape := ⟨4, ![1, 128, 64, 64]⟩
abbrev S1x128x1x64 : Shape := ⟨4, ![1, 128, 1, 64]⟩
abbrev S1x1x64x64 : Shape := ⟨4, ![1, 1, 64, 64]⟩

abbrev nBuf : Space → Nat
  | .hbm => 3
  | .vmem => 5
  | .smem => 0
  | _ => 0

abbrev bufTy : (tb : Table) → Fin (tcTables nBuf tb) → BufTy
  | .hbm, ⟨0, _⟩ => ⟨S32x512x64, .f32⟩
  | .hbm, ⟨1, _⟩ => ⟨S64x64, .f32⟩
  | .hbm, ⟨2, _⟩ => ⟨S32x512x64x64, .f32⟩
  | .local _ .vmem, ⟨0, _⟩ => ⟨S1x128x64, .f32⟩
  | .local _ .vmem, ⟨1, _⟩ => ⟨S1x128x64, .f32⟩
  | .local _ .vmem, ⟨2, _⟩ => ⟨S64x64, .f32⟩
  | .local _ .vmem, ⟨3, _⟩ => ⟨S1x128x64x64, .f32⟩
  | .local _ .vmem, ⟨4, _⟩ => ⟨S1x128x64x64, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x64_S1x128x64_0_0_0 : ∀ a, (![0, 0, 0] : Fin 3 → Nat) a + S1x128x64.size a ≤ S1x128x64.size a
  h_S1x128x64 : 0 < S1x128x64.numel
  inb_S64x64_S64x64_0_0 : ∀ a, (![0, 0] : Fin 2 → Nat) a + S64x64.size a ≤ S64x64.size a
  h_S64x64 : 0 < S64x64.numel
  shapeCasts_S1x128x64_S1x128x1x64 : S1x128x64.ShapeCasts S1x128x1x64
  shapeCasts_S64x64_S1x1x64x64 : S64x64.ShapeCasts S1x1x64x64
  broadcasts_S1x128x1x64_S1x128x64x64 : S1x128x1x64.Broadcasts S1x128x64x64
  broadcasts_S1x1x64x64_S1x128x64x64 : S1x1x64x64.Broadcasts S1x128x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S32x512x64.size a
  hwx0_0 : ∀ i : grid0.Coords, EltTy.bits .f32 = 32 ∨ (Rect.block (s := S32x512x64) S1x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64x64.size a ≤ S32x512x64x64.size a
  hwx0_2 : ∀ i : grid0.Coords, EltTy.bits .f32 = 32 ∨ (Rect.block (s := S32x512x64x64) S1x128x64x64.size (cc0_transform_2 i) (hinb0_2 i)).WholeWords (EltTy.packing .f32)

variable [Facts₀]

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x64 : Shape := ⟨3, ![32, 512, 64]⟩
abbrev S64x64 : Shape := ⟨2, ![64, 64]⟩
abbrev S32x512x1x64 : Shape := ⟨4, ![32, 512, 1, 64]⟩
abbrev S1x1x64x64 : Shape := ⟨4, ![1, 1, 64, 64]⟩
abbrev S32x512x64x64 : Shape := ⟨4, ![32, 512, 64, 64]⟩

abbrev nBuf : Space → Nat
  | .hbm => 7
  | .vmem => 0
  | .smem => 0
  | _ => 0

abbrev bufTy : (tb : Table) → Fin (tcTables nBuf tb) → BufTy
  | .hbm, ⟨0, _⟩ => ⟨S32x512x64, .f32⟩
  | .hbm, ⟨1, _⟩ => ⟨S64x64, .f32⟩
  | .hbm, ⟨2, _⟩ => ⟨S32x512x1x64, .f32⟩
  | .hbm, ⟨3, _⟩ => ⟨S1x1x64x64, .f32⟩
  | .hbm, ⟨4, _⟩ => ⟨S32x512x64x64, .f32⟩
  | .hbm, ⟨5, _⟩ => ⟨S32x512x64x64, .f32⟩
  | .hbm, ⟨6, _⟩ => ⟨S32x512x64x64, .f32⟩
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S32x512x64_S32x512x1x64_0_1_3 : S32x512x64.BroadcastsInDim S32x512x1x64 (![0, 1, 3] : Fin 3 → Fin S32x512x1x64.rank)
  bcast_S64x64_S1x1x64x64_2_3 : S64x64.BroadcastsInDim S1x1x64x64 (![2, 3] : Fin 2 → Fin S1x1x64x64.rank)
  bcast_S32x512x1x64_S32x512x64x64_0_1_2_3 : S32x512x1x64.BroadcastsInDim S32x512x64x64 (![0, 1, 2, 3] : Fin 4 → Fin S32x512x64x64.rank)
  bcast_S1x1x64x64_S32x512x64x64_0_1_2_3 : S1x1x64x64.BroadcastsInDim S32x512x64x64 (![0, 1, 2, 3] : Fin 4 → Fin S32x512x64x64.rank)

variable [Facts₀]

class Facts : Prop extends Facts₀ where

variable [Facts]
-- ==== Proof.CrfScores.lean ====
/-
  The CRF score table as ONE function of its two arguments.

  For emissions `em : [32, 512, 64]` (sequence, position, tag) and transitions `tr : [64, 64]` (previous tag, tag), the
  score of moving from tag `i` to tag `j` at position `l` of sequence `b` is

      score[b, l, i, j] = em[b, l, j] + tr[i, j].

  An entry reads ONE entry of each argument: the emission at (b, l, j), which forgets the previous tag, and the
  transition at (i, j), which forgets the sequence and the position. Nothing is summed over and no law of arithmetic
  is used: both programs form this one sum, entry by entry, with the operands in this order. So the function is stated
  for any reading of the float addition, and no finiteness of the inputs is ever needed.
-/
import Idealize.ShloMosaic.Lib.ValueIdx

noncomputable section

namespace Cert.Scores

open Idealize.ShloMosaic Idealize.ShloMosaic.ValueIdx

variable {F : FTy → Type} [FloatOps F]

/-- Emissions: sequence × position × tag. -/
abbrev Emission : Shape := ⟨3, ![32, 512, 64]⟩
/-- Transitions: previous tag × tag. -/
abbrev Transition : Shape := ⟨2, ![64, 64]⟩
/-- Scores: sequence × position × previous tag × tag. -/
abbrev Score : Shape := ⟨4, ![32, 512, 64, 64]⟩

/-- The emission entry a score reads: its sequence, its position and its tag (the previous tag is dropped). -/
abbrev emissionAt (i : Score.Idx) : Emission.Idx := ix3 (n0 := 32) (n1 := 512) (n2 := 64) (i 0) (i 1) (i 3)

/-- The transition entry a score reads: its previous tag and its tag (sequence and position are dropped). -/
abbrev transitionAt (i : Score.Idx) : Transition.Idx := ix2 (n0 := 64) (n1 := 64) (i 2) (i 3)

/-- `score[b, l, i, j] = em[b, l, j] + tr[i, j]`. -/
def scores (em : Emission.Idx → Elt F .f32) (tr : Transition.Idx → Elt F .f32) : Score.Idx → Elt F .f32 :=
  fun i => FloatOps.addf (em (emissionAt i)) (tr (transitionAt i))

/-- The table at an index. -/
theorem scores_apply (em : Emission.Idx → Elt F .f32) (tr : Transition.Idx → Elt F .f32) (i : Score.Idx) :
    scores (F := F) em tr i = FloatOps.addf (em (emissionAt i)) (tr (transitionAt i)) := rfl

end Cert.Scores

end
-- ==== Proof.ReferenceScores.lean ====
/-
  The reference program computes the score table.

  Its five operations are four broadcasts and one addition. The emissions are first given a unit axis in the place of
  the previous tag, [32, 512, 64] → [32, 512, 1, 64], then repeated along it; the transitions are given two unit axes
  in front, [64, 64] → [1, 1, 64, 64], then repeated along both. A broadcast only re-reads: the entry at (b, l, i, j)
  of the first widened array is the emission at (b, l, j), of the second the transition at (i, j). Their sum, entry
  by entry, is `Cert.Scores.scores`.
-/
import proofs.«139744_j53128745451552_1_alg».proof.Proof.Gen.ReferenceIdeal.Read
import proofs.«139744_j53128745451552_1_alg».proof.Proof.CrfScores

noncomputable section

namespace Cert.ReferenceIdeal.RefValue

open Cert.ReferenceIdeal Cert.ReferenceIdeal.Read Idealize.ShloMosaic Idealize.ShloMosaic.ValueIdx Cert.Scores

variable {F : FTy → Type} [FloatOps F]

/-- Through the two broadcasts of the emissions, entry (b, l, i, j) reads the emission at (b, l, j). -/
theorem emission_index (i : S32x512x64x64.Idx) : idx_main_v0 (idx_main_v2 i) = emissionAt i :=
  funext fun a => Fin.ext (by match a with | ⟨0, _⟩ => rfl | ⟨1, _⟩ => rfl | ⟨2, _⟩ => rfl)

/-- Through the two broadcasts of the transitions, entry (b, l, i, j) reads the transition at (i, j). -/
theorem transition_index (i : S32x512x64x64.Idx) : idx_main_v1 (idx_main_v3 i) = transitionAt i :=
  funext fun a => Fin.ext (by match a with | ⟨0, _⟩ => rfl | ⟨1, _⟩ => rfl)

/-- The reference's result is the score table of its two arguments. -/
theorem reference_scores (x0 : (⟨S32x512x64, .f32⟩ : BufTy).Contents (Elt F)) (x1 : (⟨S64x64, .f32⟩ : BufTy).Contents (Elt F)) :
    val_main_v4 (F := F) x0 x1 = scores (F := F) x0 x1 := by
  funext i
  rw [scores_apply, val_main_v4_apply, val_main_v2_apply, val_main_v0_apply, val_main_v3_apply, val_main_v1_apply,
    emission_index, transition_index]

end Cert.ReferenceIdeal.RefValue

end
-- ==== Proof.KernelScores.lean ====
/-
  The kernel computes the score table, block by block.

  The grid has 32 × 4 points. Point (b, l) is given rows 128·l … 128·l + 127 of sequence `b`'s emissions, a block
  [1, 128, 64], and the whole transition matrix [64, 64]; it writes the block [1, 128, 64, 64] of the result at
  sequence `b`, positions 128·l … 128·l + 127, all previous tags and all tags. Inside the block the body gives the
  emissions a unit axis, the transitions two, repeats both to [1, 128, 64, 64] and adds: the entry at (0, r, i, j) is
  the emission block at (0, r, j) plus the transitions at (i, j).

  A block's coordinate in the array is the block's index times the block's extent plus the coordinate inside the
  block, axis by axis. The emission window moves with the result window on the first two axes and both stay at block
  0 on their remaining axes, and the transition window never moves; so the emission the body reads for the result's
  entry (b, 128·l + r, i, j) is the array's at (b, 128·l + r, j), and the transition the array's at (i, j): the block
  written at a point is the score table of the two argument arrays, restricted to the block. Position `p` of sequence
  `b` lies in the block of point (b, p / 128), so the blocks cover the result, and the array ends as the table.
-/
import proofs.«139744_j53128745451552_1_alg».proof.Proof.Gen.KernelIdeal.Value
import proofs.«139744_j53128745451552_1_alg».proof.Proof.CrfScores

noncomputable section

namespace Cert.KernelIdeal.BlockValue

open Cert.KernelIdeal Cert.KernelIdeal.Gen Cert.KernelIdeal.Value Idealize.ShloMosaic Idealize.ShloMosaic.TcCoe Idealize.SL.Sem
open Idealize.ShloMosaic.Pipeline (Dat)
open Cert.Scores

variable {F : FTy → Type} [FloatOps F]
variable (m : (ℓ : Loc nD τ sig) → Buf (Elt F) ℓ) (ρ : Dev nD → PrngReg)

/-! ## What the body leaves in the result's block -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body's one store, of the sum of the two widened loads, leaves at (0, r, i, j) of the block the emission block
    at (0, r, j) plus the transitions at (i, j): both loads read their whole buffers. -/
theorem block_entry (P0 : Vec F S1x128x64 .f32) (P1 : Vec F S64x64 .f32) (y : S1x128x64x64.Idx) :
    out0_2 P0 P1 y = FloatOps.addf (P0 (ix2_0 y)) (P1 (ix2_1 y)) := by
  unfold out0_2
  rw [View.ld_unit_zero (S := S1x128x64) zeros3, View.ld_unit_zero (S := S64x64) zeros2]
  exact canon2_eq P0 P1 y

/-! ## Where the three windows' blocks lie -/

/-- The index maps over the 128 points: the emission window is at the result window's block on the sequence and the
    position axes; every other block index is 0; the result's sequence block is below 32 and its position block
    below 4. -/
theorem index_facts : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 2) = 0
    ∧ win0_1.index t (1 : Fin 2) = 0
    ∧ win0_2.index t (2 : Fin 4) = 0
    ∧ win0_2.index t (3 : Fin 4) = 0
    ∧ win0_2.index t (0 : Fin 4) ≤ 31
    ∧ win0_2.index t (1 : Fin 4) ≤ 3 :=
  (by decide +kernel : ∀ t : Fin grid0.N, _)

/-- Every pair of a sequence and a quarter of the positions is some point's. -/
theorem index_onto : ∀ (b : Fin 32) (q : Fin 4), ∃ t : Fin cfg0.N, win0_2.index t = ![b.val, q.val, 0, 0] :=
  (by decide +kernel : ∀ (b : Fin 32) (q : Fin 4), ∃ t : Fin grid0.N, win0_2.index t = ![b.val, q.val, 0, 0])

/-! ## What a point writes back -/

/-- Point `t` writes back the score table of the two argument arrays, restricted to its block. -/
theorem flushed_eq (c : Dev nD) (t : Fin cfg0.N) :
    (dats m 0 c).flushed 2 t = ((cfg0.win 2).blk t).view.read (Elt F) (scores (F := F) (V m c main_arg0) (V m c main_arg1)) := by
  rw [flushed2]
  funext y
  show out0_2 (iblk m c 0 t) (iblk m c 1 t) y = _
  refine (block_entry (iblk m c 0 t) (iblk m c 1 t) y).trans ?_
  obtain ⟨e0, e1, e2, e3, e4, e5, e6, -, -⟩ := index_facts t
  have hy0 : (y 0).val < 1 := (y 0).isLt
  show FloatOps.addf (V m c main_arg0 (((cfg0.win 0).blk t).view.emb (ix2_0 y))) (V m c main_arg1 (((cfg0.win 1).blk t).view.emb (ix2_1 y)))
    = FloatOps.addf (V m c main_arg0 (emissionAt (((cfg0.win 2).blk t).view.emb y))) (V m c main_arg1 (transitionAt (((cfg0.win 2).blk t).view.emb y)))
  have h0 : ((cfg0.win 0).blk t).view.emb (ix2_0 y) = emissionAt (((cfg0.win 2).blk t).view.emb y) := by
    funext a; apply Fin.ext
    match a with
    | ⟨0, _⟩ => show win0_0.index t (0 : Fin 3) * 1 + 1 * 0 = win0_2.index t (0 : Fin 4) * 1 + 1 * (y 0).val; omega
    | ⟨1, _⟩ => show win0_0.index t (1 : Fin 3) * 128 + 1 * (y 1).val = win0_2.index t (1 : Fin 4) * 128 + 1 * (y 1).val; omega
    | ⟨2, _⟩ => show win0_0.index t (2 : Fin 3) * 64 + 1 * (y 3).val = win0_2.index t (3 : Fin 4) * 64 + 1 * (y 3).val; omega
  have h1 : ((cfg0.win 1).blk t).view.emb (ix2_1 y) = transitionAt (((cfg0.win 2).blk t).view.emb y) := by
    funext a; apply Fin.ext
    match a with
    | ⟨0, _⟩ => show win0_1.index t (0 : Fin 2) * 64 + 1 * (y 2).val = win0_2.index t (2 : Fin 4) * 64 + 1 * (y 2).val; omega
    | ⟨1, _⟩ => show win0_1.index t (1 : Fin 2) * 64 + 1 * (y 3).val = win0_2.index t (3 : Fin 4) * 64 + 1 * (y 3).val; omega
  rw [h0, h1]

/-! ## The blocks cover the result -/

/-- An index of the result is in point `t`'s block iff each coordinate is in the block's range on its axis. -/
theorem mem_block (t : Fin cfg0.N) (i : S32x512x64x64.Idx) :
    i ∈ ((cfg0.win 2).blk t).view.set ↔ ∀ a : Fin 4, win0_2.index t a * S1x128x64x64.size a ≤ (i a).val ∧ (i a).val < win0_2.index t a * S1x128x64x64.size a + S1x128x64x64.size a := by
  show i ∈ ((View.whole main_v0).slice (win0_2.rect t)).set ↔ _
  rw [View.set_slice_whole, Rect.mem_set_unit]
  exact Iff.rfl

/-- Entry (b, p, i, j) lies in the block of the point at sequence `b` and position quarter `p / 128`, which writes back. -/
theorem cover (i : S32x512x64x64.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 64 := (i 2).isLt
  have hi3 : (i 3).val < 64 := (i 3).isLt
  obtain ⟨t, ht⟩ := index_onto ⟨(i 0).val, hi0⟩ ⟨(i 1).val / 128, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-! ## The result array, and the run -/

/-- After the last point the result array is the score table of the argument arrays as launched. -/
theorem final_scores (c : Dev nD) :
    (dats m 0 c).arrAt 2 cfg0.N = scores (F := F) (m ((c : Thread nD τ).loc main_arg0)) (m ((c : Thread nD τ).loc main_arg1)) :=
  (dats m 0 c).arrAt_eq_of_cover 2 (scores (F := F) (V m c main_arg0) (V m c main_arg1)) (fun t _ => flushed_eq m c t) cover

/-- Every weakly fair execution of the kernel's program ends with the result at the score table of the arguments and
    the arguments unchanged. -/
theorem run : θ_run defs (onTc (τ := τ) (main (F := F))) ⟨m, fun _ => 0, ρ⟩ fun r => ∀ c : Dev nD,
      r.2.mem ((c : Thread nD τ).loc main_v0) = scores (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_scores m c), (h c).2⟩) (run_blocks m ρ)

end Cert.KernelIdeal.BlockValue

end
-- ==== Proof.lean ====
/-
  A CRF score table, `score[b, l, i, j] = emission[b, l, j] + transition[i, j]` over [32, 512, 64, 64]: a kernel that
  forms it block by block on a 32 × 4 grid, against the same sum written with broadcasts on whole arrays.

  Both programs add ONE emission entry and ONE transition entry for each entry of the result, in the same order, and
  neither uses a literal; so they agree under every reading of the float addition, and the precondition (finite
  inputs) is never opened. The table as one function is `Cert.Scores.scores` (Proof/CrfScores.lean). The reference's
  last stage is that function of its arguments (Proof/ReferenceScores.lean). Each grid point writes the table's
  restriction to its block, and the blocks cover the result (Proof/KernelScores.lean). Here the two runs are set side
  by side at arguments that agree.

  The three frames: the two kernel programs' are the generated class-A frames, and the reference's is its run with
  the result dropped. The idealization rewrote no operation, so what it preserves is `True`.
-/
import proofs.«139744_j53128745451552_1_alg».proof.Defs
import proofs.«139744_j53128745451552_1_alg».proof.Proof.Gen.Kernel
import proofs.«139744_j53128745451552_1_alg».proof.Proof.Gen.Kernel.Skeleton
import proofs.«139744_j53128745451552_1_alg».proof.Proof.Gen.Kernel.Launch
import proofs.«139744_j53128745451552_1_alg».proof.Proof.Gen.Kernel.Points
import proofs.«139744_j53128745451552_1_alg».proof.Proof.Gen.Kernel.Frame
import proofs.«139744_j53128745451552_1_alg».proof.Proof.Gen.KernelIdeal
import proofs.«139744_j53128745451552_1_alg».proof.Proof.Gen.KernelIdeal.Skeleton
import proofs.«139744_j53128745451552_1_alg».proof.Proof.Gen.KernelIdeal.Launch
import proofs.«139744_j53128745451552_1_alg».proof.Proof.Gen.KernelIdeal.Points
import proofs.«139744_j53128745451552_1_alg».proof.Proof.Gen.KernelIdeal.Frame
import proofs.«139744_j53128745451552_1_alg».proof.Proof.Gen.ReferenceIdeal
import proofs.«139744_j53128745451552_1_alg».proof.Proof.Gen.Pre_finite_inputs
import proofs.«139744_j53128745451552_1_alg».proof.Proof.Gen.KernelIdeal.Value
import proofs.«139744_j53128745451552_1_alg».proof.Proof.Gen.ReferenceIdeal.Run
import proofs.«139744_j53128745451552_1_alg».proof.Proof.Gen.ReferenceIdeal.Read
import Idealize.ShloMosaic.Adequacy
import Idealize.ShloMosaic.Init
import proofs.«139744_j53128745451552_1_alg».proof.Proof.CrfScores
import proofs.«139744_j53128745451552_1_alg».proof.Proof.ReferenceScores
import proofs.«139744_j53128745451552_1_alg».proof.Proof.KernelScores

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's five host operations run to the end; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both the score table of those
    arguments: the kernel's by its blocks, the reference's by its broadcasts read at an index. -/
theorem algebraic : Cert.algebraic_KernelIdeal_ReferenceIdeal := by
  intro m ρ m' ρ' _ hagree
  refine ⟨_, Cert.KernelIdeal.BlockValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_scores, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
